-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : FVec F S256x16 .f32) (main_arg2 : FVec F S16 .f32) (main_arg3 : FVec F S16x2 .f32) (main_arg4 : FVec F S2 .f32) (main_arg5 : IVec S2x6400000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S5000x256 : Shape := ⟨2, ![5000, 256]⟩
abbrev S5000x16 : Shape := ⟨2, ![5000, 16]⟩
abbrev S6500000x16 : Shape := ⟨2, ![6500000, 16]⟩
abbrev S1x16 : Shape := ⟨2, ![1, 16]⟩
abbrev S100000x2 : Shape := ⟨2, ![100000, 2]⟩
abbrev S5000x2 : Shape := ⟨2, ![5000, 2]⟩
abbrev S6500000x2 : Shape := ⟨2, ![6500000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S256x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x2, .f32⟩
  | .hbm, ⟨66, _⟩ => ⟨S_, .i32⟩
  | .hbm, ⟨67, _⟩ => ⟨S6500000, .i32⟩
  | .hbm, ⟨68, _⟩ => ⟨S6500000, .i1⟩
  | .hbm, ⟨69, _⟩ => ⟨S_, .i32⟩
  | .hbm, ⟨70, _⟩ => ⟨S6500000, .i32⟩
  | .hbm, ⟨71, _⟩ => ⟨S6500000, .i32⟩
  | .hbm, ⟨72, _⟩ => ⟨S6500000, .i32⟩
  | .hbm, ⟨73, _⟩ => ⟨S6500000x1, .i32⟩
  | .hbm, ⟨74, _⟩ => ⟨S6500000x2, .f32⟩
  | .hbm, ⟨75, _⟩ => ⟨S6500000x1, .f32⟩
  | .hbm, ⟨76, _⟩ => ⟨S6500000x2, .f32⟩
  | .hbm, ⟨77, _⟩ => ⟨S6500000x2, .f32⟩
  | .hbm, ⟨78, _⟩ => ⟨S_, .f32⟩
  | .hbm, ⟨79, _⟩ => ⟨S100000x2, .f32⟩
  | .hbm, ⟨80, _⟩ => ⟨S6500000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x256_S256x16_S5000x16_1_0_0_1_n_n_wf : DotDims.WF S5000x256 S256x16 S5000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S5000x16_S16x2_S5000x2_1_0_0_1_n_n_wf : DotDims.WF S5000x16 S16x2 S5000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x2 : Shape := ⟨2, ![100000, 2]⟩
abbrev S6500000x2 : Shape := ⟨2, ![6500000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x2, .f32⟩
  | .hbm, ⟨79, _⟩ => ⟨S6500000x1, .f32⟩
  | .hbm, ⟨80, _⟩ => ⟨S6500000x2, .f32⟩
  | .hbm, ⟨81, _⟩ => ⟨S6500000x2, .f32⟩
  | .hbm, ⟨82, _⟩ => ⟨S_, .f32⟩
  | .hbm, ⟨83, _⟩ => ⟨S100000x2, .f32⟩
  | .hbm, ⟨84, _⟩ => ⟨S6500000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x256_S256x16_S100000x16_1_0_0_1_n_n_wf : DotDims.WF S100000x256 S256x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.HostStages.lean ====
/-
  The two neighbourhood aggregations of the reference, each as ONE function of what it reads.

  Both layers do the same three things to a node-feature array `h`: gather row `src e` for every edge `e` (a negative
  index wrapped by the node count first), scale it by the edge's weight `nrm e`, and add the scaled rows into the rows
  `tgt e` of a zero array. Between the reference and the kernel's program only `h` differs (a host product there, a
  kernel region's output here). Naming the chain as a function of `h`, the edge weights and the two edge lists lets the
  two programs be compared at those four values without opening the gather or the scatter.
-/
import proofs.«159092_j55095840473679_1_alg».proof.Proof.RefRead

noncomputable section

namespace Cert.ReferenceIdeal.Stages

open Cert.ReferenceIdeal Cert.ReferenceIdeal.Gen Cert.ReferenceIdeal.ReadP Idealize.ShloMosaic

variable {F : FTy → Type} [FloatOps F]

/-- Layer 1's aggregation of a [100000, 16] array `h`: rows `src e` of `h`, scaled by `nrm e`, added into rows `tgt e` of
    the zero array. -/
def aggregate16 (h : (⟨S100000x16, .f32⟩ : BufTy).Contents (Elt F)) (nrm : (⟨S6500000, .f32⟩ : BufTy).Contents (Elt F))
    (src tgt : (⟨S6500000, .i32⟩ : BufTy).Contents (Elt F)) : (⟨S100000x16, .f32⟩ : BufTy).Contents (Elt F) :=
  Host.scatterAdd scatter_S100000x16_S6500000x1_S6500000x16_1_0_0_1
    (broadcastInDim S100000x16 ![] bcast_S_S100000x16 (constant (F := F) S_ .f32 0x00000000#32))
    (broadcastInDim S6500000x1 ![0] bcast_S6500000_S6500000x1_0 tgt)
    (mulf
      (Host.gather gather_S100000x16_S6500000x1_S6500000x16_1_0_n_n_0_1_116 h
        (broadcastInDim S6500000x1 ![0] bcast_S6500000_S6500000x1_0
          (select (cmpi .slt src (broadcastInDim S6500000 ![] bcast_S_S6500000 (constantI S_ 32 0#32)))
            (addi src (broadcastInDim S6500000 ![] bcast_S_S6500000 (constantI S_ 32 100000#32))) src)))
      (broadcastInDim S6500000x16 ![0, 1] bcast_S6500000x1_S6500000x16_0_1
        (broadcastInDim S6500000x1 ![0] bcast_S6500000_S6500000x1_0 nrm)))

/-- The reference's layer-1 aggregate is that function of its first product, its edge weights and its edge lists. -/
theorem v43_eq (x0 : (⟨S100000x256, .f32⟩ : BufTy).Contents (Elt F)) (x1 : (⟨S256x16, .f32⟩ : BufTy).Contents (Elt F))
    (x5 : (⟨S2x6400000, .i32⟩ : BufTy).Contents (Elt F)) :
    val_main_v43 (F := F) x0 x1 x5
      = aggregate16 (val_main_v30 (F := F) x0 x1) (val_main_v29 (F := F) x5) (val_main_v3 (F := F) x5) (val_main_v6 (F := F) x5) := rfl

/-- Layer 2's aggregation of a [100000, 2] array `h`, the same chain at two columns. -/
def aggregate2 (h : (⟨S100000x2, .f32⟩ : BufTy).Contents (Elt F)) (nrm : (⟨S6500000, .f32⟩ : BufTy).Contents (Elt F))
    (src tgt : (⟨S6500000, .i32⟩ : BufTy).Contents (Elt F)) : (⟨S100000x2, .f32⟩ : BufTy).Contents (Elt F) :=
  Host.scatterAdd scatter_S100000x2_S6500000x1_S6500000x2_1_0_0_1
    (broadcastInDim S100000x2 ![] bcast_S_S100000x2 (constant (F := F) S_ .f32 0x00000000#32))
    (broadcastInDim S6500000x1 ![0] bcast_S6500000_S6500000x1_0 tgt)
    (mulf
      (Host.gather gather_S100000x2_S6500000x1_S6500000x2_1_0_n_n_0_1_12 h
        (broadcastInDim S6500000x1 ![0] bcast_S6500000_S6500000x1_0
          (select (cmpi .slt src (broadcastInDim S6500000 ![] bcast_S_S6500000 (constantI S_ 32 0#32)))
            (addi src (broadcastInDim S6500000 ![] bcast_S_S6500000 (constantI S_ 32 100000#32))) src)))
      (broadcastInDim S6500000x2 ![0, 1] bcast_S6500000x1_S6500000x2_0_1
        (broadcastInDim S6500000x1 ![0] bcast_S6500000_S6500000x1_0 nrm)))

/-- The reference's layer-2 aggregate is that function of its second product, its edge weights and its edge lists. -/
theorem v61_eq (x0 : (⟨S100000x256, .f32⟩ : BufTy).Contents (Elt F)) (x1 : (⟨S256x16, .f32⟩ : BufTy).Contents (Elt F))
    (x2 : (⟨S16, .f32⟩ : BufTy).Contents (Elt F)) (x3 : (⟨S16x2, .f32⟩ : BufTy).Contents (Elt F))
    (x5 : (⟨S2x6400000, .i32⟩ : BufTy).Contents (Elt F)) :
    val_main_v61 (F := F) x0 x1 x2 x3 x5
      = aggregate2 (val_main_v48 (F := F) x0 x1 x2 x3 x5) (val_main_v29 (F := F) x5) (val_main_v3 (F := F) x5) (val_main_v6 (F := F) x5) := rfl

end Cert.ReferenceIdeal.Stages

end
-- ==== Proof.HostWalk.lean ====
/-
  The host side of the kernel's program, read against the reference's stages.

  The kernel's @main is five stretches of host operations around four kernel regions. What a stretch leaves in a
  buffer is a fold of its operations over the contents it starts from, and the fold is read here once per stretch:

  * the three stretches before region 0 compute the two edge lists (the edge-index argument's rows, each followed by
    the self-loops) and the edge weights, by the very operations the reference computes them with;
  * the stretch between regions 0 and 1 aggregates region 0's output over the edges and reshapes the first bias;
  * the stretch between regions 2 and 3 aggregates region 2's output and reshapes the second bias.

  No stretch and no region writes an argument, an edge list or the edge weights after they are made, so later
  boundaries hold them unchanged. Everything here holds for any float values: nothing is evaluated.
-/
import proofs.«159092_j55095840473679_1_alg».proof.Proof.Gen.KernelIdeal.Frame
import proofs.«159092_j55095840473679_1_alg».proof.Proof.HostStages
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal.ReadP Cert.ReferenceIdeal.Stages

variable {F : FTy → Type} [FloatOps F]

/-- Operations run one list after another are the lists' concatenation run once. -/
theorem after_append' (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

/-- A buffer none of the listed host operations writes keeps its contents over them. -/
macro "host_keeps" : tactic => `(tactic| (
  refine StableHlo.after_of_forall_not_mem _ _ (List.forall_iff_forall_mem.mp ?_)
  simp only [hostOps0, hostOps0_1, hostOps0_2, hostOps1, hostOps3, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The stretches, from any starting contents -/

/-- The operations before region 0 compute the edge weights from the edge-index argument, as the reference does. -/
theorem prefix_v29 (W : Valuation τ sig (Elt F)) :
    StableHlo.after (hostOps0 ++ hostOps0_1 ++ hostOps0_2) W (Proc.devRef .tc main_v29)
      = val_main_v29 (F := F) (W (Proc.devRef .tc main_arg5)) := by
  simp only [hostOps0, hostOps0_1, hostOps0_2, List.cons_append, List.nil_append]
  after_results_simp
  (try simp only [TRef.ofBuf, TRef.toBuf, cast_eq])
  rfl

/-- … and the list of edge sources (row 0 of the edge index, then the self-loops). -/
theorem prefix_v3 (W : Valuation τ sig (Elt F)) :
    StableHlo.after (hostOps0 ++ hostOps0_1 ++ hostOps0_2) W (Proc.devRef .tc main_v3)
      = val_main_v3 (F := F) (W (Proc.devRef .tc main_arg5)) := by
  simp only [hostOps0, hostOps0_1, hostOps0_2, List.cons_append, List.nil_append]
  after_results_simp
  (try simp only [TRef.ofBuf, TRef.toBuf, cast_eq])
  rfl

/-- … and the list of edge targets (row 1 of the edge index, then the self-loops). -/
theorem prefix_v6 (W : Valuation τ sig (Elt F)) :
    StableHlo.after (hostOps0 ++ hostOps0_1 ++ hostOps0_2) W (Proc.devRef .tc main_v6)
      = val_main_v6 (F := F) (W (Proc.devRef .tc main_arg5)) := by
  simp only [hostOps0, hostOps0_1, hostOps0_2, List.cons_append, List.nil_append]
  after_results_simp
  (try simp only [TRef.ofBuf, TRef.toBuf, cast_eq])
  rfl

/-- They write no float argument. -/
theorem prefix_arg0 (W : Valuation τ sig (Elt F)) :
    StableHlo.after (hostOps0 ++ hostOps0_1 ++ hostOps0_2) W (Proc.devRef .tc main_arg0) = W (Proc.devRef .tc main_arg0) := by host_keeps
theorem prefix_arg1 (W : Valuation τ sig (Elt F)) :
    StableHlo.after (hostOps0 ++ hostOps0_1 ++ hostOps0_2) W (Proc.devRef .tc main_arg1) = W (Proc.devRef .tc main_arg1) := by host_keeps
theorem prefix_arg2 (W : Valuation τ sig (Elt F)) :
    StableHlo.after (hostOps0 ++ hostOps0_1 ++ hostOps0_2) W (Proc.devRef .tc main_arg2) = W (Proc.devRef .tc main_arg2) := by host_keeps
theorem prefix_arg3 (W : Valuation τ sig (Elt F)) :
    StableHlo.after (hostOps0 ++ hostOps0_1 ++ hostOps0_2) W (Proc.devRef .tc main_arg3) = W (Proc.devRef .tc main_arg3) := by host_keeps
theorem prefix_arg4 (W : Valuation τ sig (Elt F)) :
    StableHlo.after (hostOps0 ++ hostOps0_1 ++ hostOps0_2) W (Proc.devRef .tc main_arg4) = W (Proc.devRef .tc main_arg4) := by host_keeps

/-- The stretch after region 0 leaves the layer-1 aggregate of region 0's output. -/
theorem mid_v43 (W : Valuation τ sig (Elt F)) :
    StableHlo.after hostOps1 W (Proc.devRef .tc main_v43)
      = aggregate16 (F := F) (W (Proc.devRef .tc main_v30)) (W (Proc.devRef .tc main_v29)) (W (Proc.devRef .tc main_v3)) (W (Proc.devRef .tc main_v6)) := by
  simp only [hostOps1]
  after_results_simp
  rfl

/-- … and the first bias as a [1, 16] row. -/
theorem mid_v44 (W : Valuation τ sig (Elt F)) :
    StableHlo.after hostOps1 W (Proc.devRef .tc main_v44) = shapeCast S1x16 (W (Proc.devRef .tc main_arg2)) shapeCasts_S16_S1x16 := by
  simp only [hostOps1]
  after_results_simp
  rfl

/-- It writes none of the edge lists, the edge weights, the later arguments. -/
theorem mid_v29 (W : Valuation τ sig (Elt F)) : StableHlo.after hostOps1 W (Proc.devRef .tc main_v29) = W (Proc.devRef .tc main_v29) := by host_keeps
theorem mid_v3 (W : Valuation τ sig (Elt F)) : StableHlo.after hostOps1 W (Proc.devRef .tc main_v3) = W (Proc.devRef .tc main_v3) := by host_keeps
theorem mid_v6 (W : Valuation τ sig (Elt F)) : StableHlo.after hostOps1 W (Proc.devRef .tc main_v6) = W (Proc.devRef .tc main_v6) := by host_keeps
theorem mid_arg3 (W : Valuation τ sig (Elt F)) : StableHlo.after hostOps1 W (Proc.devRef .tc main_arg3) = W (Proc.devRef .tc main_arg3) := by host_keeps
theorem mid_arg4 (W : Valuation τ sig (Elt F)) : StableHlo.after hostOps1 W (Proc.devRef .tc main_arg4) = W (Proc.devRef .tc main_arg4) := by host_keeps

/-- The stretch after region 2 leaves the layer-2 aggregate of region 2's output. -/
theorem last_v59 (W : Valuation τ sig (Elt F)) :
    StableHlo.after hostOps3 W (Proc.devRef .tc main_v59)
      = aggregate2 (F := F) (W (Proc.devRef .tc main_v46)) (W (Proc.devRef .tc main_v29)) (W (Proc.devRef .tc main_v3)) (W (Proc.devRef .tc main_v6)) := by
  simp only [hostOps3]
  after_results_simp
  rfl

/-- … and the second bias as a [1, 2] row. -/
theorem last_v60 (W : Valuation τ sig (Elt F)) :
    StableHlo.after hostOps3 W (Proc.devRef .tc main_v60) = shapeCast S1x2 (W (Proc.devRef .tc main_arg4)) shapeCasts_S2_S1x2 := by
  simp only [hostOps3]
  after_results_simp
  rfl

/-! ## The boundaries of the run -/

variable (m : (ℓ : Loc nD τ sig) → Buf (Elt F) ℓ) (ρ : Dev nD → PrngReg)

/-- Region 0 is entered from the launch memory after the three first stretches, run as one. -/
theorem W3_eq (c : Dev nD) : W3 m ρ c = StableHlo.after (hostOps0 ++ hostOps0_1 ++ hostOps0_2) (W0 m ρ c) := by
  rw [after_append', after_append']

theorem W3_arg0 (c : Dev nD) : W3 m ρ c (Proc.devRef .tc main_arg0) = m ((c : Thread nD τ).loc main_arg0) := by
  rw [W3_eq, prefix_arg0]
theorem W3_arg1 (c : Dev nD) : W3 m ρ c (Proc.devRef .tc main_arg1) = m ((c : Thread nD τ).loc main_arg1) := by
  rw [W3_eq, prefix_arg1]
theorem W3_v29 (c : Dev nD) : W3 m ρ c (Proc.devRef .tc main_v29) = val_main_v29 (F := F) (m ((c : Thread nD τ).loc main_arg5)) := by
  rw [W3_eq, prefix_v29]
theorem W3_v3 (c : Dev nD) : W3 m ρ c (Proc.devRef .tc main_v3) = val_main_v3 (F := F) (m ((c : Thread nD τ).loc main_arg5)) := by
  rw [W3_eq, prefix_v3]
theorem W3_v6 (c : Dev nD) : W3 m ρ c (Proc.devRef .tc main_v6) = val_main_v6 (F := F) (m ((c : Thread nD τ).loc main_arg5)) := by
  rw [W3_eq, prefix_v6]

/-- Region 0 writes only its output array. -/
theorem W4_v29 (c : Dev nD) : W4 m ρ c (Proc.devRef .tc main_v29) = val_main_v29 (F := F) (m ((c : Thread nD τ).loc main_arg5)) :=
  (W4_of_ne m ρ c main_v29 (by decide)).trans (W3_v29 m ρ c)
theorem W4_v3 (c : Dev nD) : W4 m ρ c (Proc.devRef .tc main_v3) = val_main_v3 (F := F) (m ((c : Thread nD τ).loc main_arg5)) :=
  (W4_of_ne m ρ c main_v3 (by decide)).trans (W3_v3 m ρ c)
theorem W4_v6 (c : Dev nD) : W4 m ρ c (Proc.devRef .tc main_v6) = val_main_v6 (F := F) (m ((c : Thread nD τ).loc main_arg5)) :=
  (W4_of_ne m ρ c main_v6 (by decide)).trans (W3_v6 m ρ c)
theorem W4_arg2 (c : Dev nD) : W4 m ρ c (Proc.devRef .tc main_arg2) = m ((c : Thread nD τ).loc main_arg2) :=
  (W4_of_ne m ρ c main_arg2 (by decide)).trans (by rw [W3_eq, prefix_arg2])
theorem W4_arg3 (c : Dev nD) : W4 m ρ c (Proc.devRef .tc main_arg3) = m ((c : Thread nD τ).loc main_arg3) :=
  (W4_of_ne m ρ c main_arg3 (by decide)).trans (by rw [W3_eq, prefix_arg3])
theorem W4_arg4 (c : Dev nD) : W4 m ρ c (Proc.devRef .tc main_arg4) = m ((c : Thread nD τ).loc main_arg4) :=
  (W4_of_ne m ρ c main_arg4 (by decide)).trans (by rw [W3_eq, prefix_arg4])

/-- Region 1's entry: the layer-1 aggregate of region 0's output, and the first bias as a row. -/
theorem W5_v43 (c : Dev nD) : W5 m ρ c (Proc.devRef .tc main_v43)
    = aggregate16 (F := F) (W4 m ρ c (Proc.devRef .tc main_v30)) (val_main_v29 (F := F) (m ((c : Thread nD τ).loc main_arg5)))
        (val_main_v3 (F := F) (m ((c : Thread nD τ).loc main_arg5))) (val_main_v6 (F := F) (m ((c : Thread nD τ).loc main_arg5))) := by
  show StableHlo.after hostOps1 (W4 m ρ c) (Proc.devRef .tc main_v43) = _
  rw [mid_v43, W4_v29, W4_v3, W4_v6]
theorem W5_v44 (c : Dev nD) : W5 m ρ c (Proc.devRef .tc main_v44) = shapeCast S1x16 (m ((c : Thread nD τ).loc main_arg2)) shapeCasts_S16_S1x16 := by
  show StableHlo.after hostOps1 (W4 m ρ c) (Proc.devRef .tc main_v44) = _
  rw [mid_v44, W4_arg2]

/-- Region 2's entry is region 1's exit; the second weight matrix is there as launched. -/
theorem W6_arg3 (c : Dev nD) : W6 m ρ c (Proc.devRef .tc main_arg3) = m ((c : Thread nD τ).loc main_arg3) :=
  (W6_of_ne m ρ c main_arg3 (by decide)).trans ((mid_arg3 (W4 m ρ c)).trans (W4_arg3 m ρ c))

/-- At region 2's exit the edge lists, the edge weights and the second bias are still there. -/
theorem W7_v29 (c : Dev nD) : W7 m ρ c (Proc.devRef .tc main_v29) = val_main_v29 (F := F) (m ((c : Thread nD τ).loc main_arg5)) :=
  (W7_of_ne m ρ c main_v29 (by decide)).trans ((W6_of_ne m ρ c main_v29 (by decide)).trans ((mid_v29 (W4 m ρ c)).trans (W4_v29 m ρ c)))
theorem W7_v3 (c : Dev nD) : W7 m ρ c (Proc.devRef .tc main_v3) = val_main_v3 (F := F) (m ((c : Thread nD τ).loc main_arg5)) :=
  (W7_of_ne m ρ c main_v3 (by decide)).trans ((W6_of_ne m ρ c main_v3 (by decide)).trans ((mid_v3 (W4 m ρ c)).trans (W4_v3 m ρ c)))
theorem W7_v6 (c : Dev nD) : W7 m ρ c (Proc.devRef .tc main_v6) = val_main_v6 (F := F) (m ((c : Thread nD τ).loc main_arg5)) :=
  (W7_of_ne m ρ c main_v6 (by decide)).trans ((W6_of_ne m ρ c main_v6 (by decide)).trans ((mid_v6 (W4 m ρ c)).trans (W4_v6 m ρ c)))
theorem W7_arg4 (c : Dev nD) : W7 m ρ c (Proc.devRef .tc main_arg4) = m ((c : Thread nD τ).loc main_arg4) :=
  (W7_of_ne m ρ c main_arg4 (by decide)).trans ((W6_of_ne m ρ c main_arg4 (by decide)).trans ((mid_arg4 (W4 m ρ c)).trans (W4_arg4 m ρ c)))

/-- Region 3's entry: the layer-2 aggregate of region 2's output, and the second bias as a row. -/
theorem W8_v59 (c : Dev nD) : W8 m ρ c (Proc.devRef .tc main_v59)
    = aggregate2 (F := F) (W7 m ρ c (Proc.devRef .tc main_v46)) (val_main_v29 (F := F) (m ((c : Thread nD τ).loc main_arg5)))
        (val_main_v3 (F := F) (m ((c : Thread nD τ).loc main_arg5))) (val_main_v6 (F := F) (m ((c : Thread nD τ).loc main_arg5))) := by
  show StableHlo.after hostOps3 (W7 m ρ c) (Proc.devRef .tc main_v59) = _
  rw [last_v59, W7_v29, W7_v3, W7_v6]
theorem W8_v60 (c : Dev nD) : W8 m ρ c (Proc.devRef .tc main_v60) = shapeCast S1x2 (m ((c : Thread nD τ).loc main_arg4)) shapeCasts_S2_S1x2 := by
  show StableHlo.after hostOps3 (W7 m ρ c) (Proc.devRef .tc main_v60) = _
  rw [last_v60, W7_arg4]

end Cert.KernelIdeal.Walk

end
-- ==== Proof.Region0.lean ====
/-
  Region 0: the first linear transform, tiled by rows.

  The pipeline runs over 20 grid points; point `t` fetches rows `5000 t … 5000 t + 4999` of the feature array and the
  whole weight matrix, and writes back the same rows of the product. At the ideal values the body's change of float
  format is the identity and the matrix unit's product into the zero accumulator is the plain sum over the contraction
  index, so what point `t` writes back is block `t` of ONE whole-array function of the two arrays the region finds,
  `rowsTimes x w (r, j) = ∑ k, x (r, k) · w (k, j)`. The row blocks tile the output, so the array ends holding that
  function, whatever the region's entry contents `V` are.
-/
import proofs.«159092_j55095840473679_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Region0

open Cert.KernelIdeal Cert.KernelIdeal.Gen

/-- Row `i 0` of the left array at column `k`. -/
abbrev lrow (i : S100000x16.Idx) (k : Fin 256) : S100000x256.Idx := fun a => match a with
  | ⟨0, _⟩ => ⟨(i 0).val, (i 0).isLt⟩
  | ⟨1, _⟩ => ⟨k.val, k.isLt⟩
/-- Column `i 1` of the right array at row `k`. -/
abbrev rcol (i : S100000x16.Idx) (k : Fin 256) : S256x16.Idx := fun a => match a with
  | ⟨0, _⟩ => ⟨k.val, k.isLt⟩
  | ⟨1, _⟩ => ⟨(i 1).val, (i 1).isLt⟩

/-- The product of a [100000, 256] array with a [256, 16] one, entry by entry, on the extended reals. -/
def rowsTimes (x : S100000x256.Idx → EReal) (w : S256x16.Idx → EReal) : S100000x16.Idx → EReal :=
  fun i => ∑ k : Fin 256, x (lrow i k) * w (rcol i k)

/-! ## The body's payload at an index of the block -/

abbrev dd := dot_S5000x256_S256x16_S5000x16_1_0_0_1_n_n

theorem lhs_0 (j : S5000x16.Idx) (q : dd.contr.Idx) : (dd.lhsIdx j q 0).val = (j 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_1 (j : S5000x16.Idx) (q : dd.contr.Idx) : (dd.lhsIdx j q 1).val = (q ⟨0, by decide⟩).val :=
  dot_S5000x256_S256x16_S5000x16_1_0_0_1_n_n.lhsIdx_val_of_single rfl j q
theorem rhs_0 (j : S5000x16.Idx) (q : dd.contr.Idx) : (dd.rhsIdx j q 0).val = (q ⟨0, by decide⟩).val :=
  dot_S5000x256_S256x16_S5000x16_1_0_0_1_n_n.rhsIdx_val_of_single rfl j q
theorem rhs_1 (j : S5000x16.Idx) (q : dd.contr.Idx) : (dd.rhsIdx j q 1).val = (j 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- Row `j 0` of the left block at column `k`. -/
abbrev brow (j : S5000x16.Idx) (k : Fin 256) : S5000x256.Idx := fun a => match a with
  | ⟨0, _⟩ => ⟨(j 0).val, (j 0).isLt⟩
  | ⟨1, _⟩ => ⟨k.val, k.isLt⟩
/-- Column `j 1` of the weight block at row `k`. -/
abbrev bcol (j : S5000x16.Idx) (k : Fin 256) : S256x16.Idx := fun a => match a with
  | ⟨0, _⟩ => ⟨k.val, k.isLt⟩
  | ⟨1, _⟩ => ⟨(j 1).val, (j 1).isLt⟩

/-- The payload at an index of the block: the sum over the contraction index of the loaded blocks' products. -/
theorem pay_eq (x0 : Vec Ideal S5000x256 .f32) (w0 : Vec Ideal S256x16 .f32) :
    k0_pay1 (F := Ideal) x0 w0 = fun j => ∑ k : Fin 256, x0 (brow j k) * w0 (bcol j k) := by
  funext j
  unfold k0_pay1
  simp only [matmul]
  rw [Ideal.matmul_constant_zero_apply, ← Equiv.sum_comp (ValueIdx.contrEquiv1 dot_S5000x256_S256x16_S5000x16_1_0_0_1_n_n 256 rfl rfl).symm]
  refine Finset.sum_congr rfl fun k _ => ?_
  have hk := ValueIdx.contrEquiv1_symm_val dot_S5000x256_S256x16_S5000x16_1_0_0_1_n_n 256 rfl rfl k
  have el : dot_S5000x256_S256x16_S5000x16_1_0_0_1_n_n.lhsIdx j ((ValueIdx.contrEquiv1 dot_S5000x256_S256x16_S5000x16_1_0_0_1_n_n 256 rfl rfl).symm k) = brow j k := funext fun a => Fin.ext (by
    match a with
    | ⟨0, _⟩ => exact lhs_0 _ _
    | ⟨1, _⟩ => exact (lhs_1 _ _).trans hk)
  have er : dot_S5000x256_S256x16_S5000x16_1_0_0_1_n_n.rhsIdx j ((ValueIdx.contrEquiv1 dot_S5000x256_S256x16_S5000x16_1_0_0_1_n_n 256 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The feature window's block at point `t`, and the weight window's, at their literal types. -/
abbrev xblk (c : Dev nD) (t : Fin cfg0.N) : Vec Ideal S5000x256 .f32 := iblk0 V c 0 t
abbrev wblk (c : Dev nD) (t : Fin cfg0.N) : Vec Ideal S256x16 .f32 := iblk0 V c 1 t
/-- The two arrays the region finds, at their literal types. -/
abbrev xarr (c : Dev nD) : Vec Ideal S100000x256 .f32 := V c main_arg0
abbrev warr (c : Dev nD) : Vec Ideal S256x16 .f32 := V c main_arg1

/-- The printed index maps over the grid: the feature window moves with the output window along the rows, at block
    index `t`; the weight window and every column index stay at block 0. -/
theorem idx_facts : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = 0
    ∧ win0_1.index t (1 : Fin 2) = 0 :=
  (by decide +kernel : ∀ t : Fin grid0.N, _)

/-- What point `t` writes back is block `t` of the product of the two arrays the region finds. -/
theorem flushed_eq (c : Dev nD) (t : Fin cfg0.N) :
    (dat0 V c).flushed 2 t = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  rw [pay_eq]
  obtain ⟨e0, e1, e2, e3, e4, e5⟩ := idx_facts t
  funext j
  show (∑ k : Fin 256, xblk V c t (brow j k) * wblk V c t (bcol j k)) = rowsTimes (xarr V c) (warr V c) (((cfg0.win 2).blk t).view.emb j)
  unfold rowsTimes
  refine Finset.sum_congr rfl fun k _ => ?_
  have h0 : xblk V c t (brow j k) = xarr V c (lrow (((cfg0.win 2).blk t).view.emb j) k) := by
    show V c main_arg0 (((cfg0.win 0).blk t).view.emb (brow j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : wblk V c t (bcol j k) = warr V c (rcol (((cfg0.win 2).blk t).view.emb j) k) := by
    show V c main_arg1 (((cfg0.win 1).blk t).view.emb (bcol j k)) = _
    congr 1
    funext a; apply Fin.ext
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  rw [h0, h1]

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the output array lies in the block of the point its row falls to. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  refine ⟨⟨(i 0).val / 5000, by omega⟩, flush0_2 _, ?_⟩
  rw [mem_blk]
  obtain ⟨e0, e1, -, -, -, -⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ _ ∧ _ < (i 0).val / 5000 * 5000 + 5000; omega
  | ⟨1, _⟩ => show win0_2.index _ (1 : Fin 2) * 16 ≤ (i 1).val ∧ (i 1).val < win0_2.index _ (1 : Fin 2) * 16 + 16; rw [e1]; omega

/-- The output array after the region: the product of the two arrays the region finds. -/
theorem final (c : Dev nD) : (dat0 V c).arrAt 2 cfg0.N = rowsTimes (V c main_arg0) (V c main_arg1) :=
  (dat0 V c).arrAt_eq_of_cover 2 (rowsTimes (V c main_arg0) (V c main_arg1)) (fun t _ => flushed_eq V c t) cover

end Cert.KernelIdeal.Region0

end
-- ==== Proof.Region1.lean ====
/-
  Region 1: bias and ReLU, tiled by rows.

  Point `t` fetches rows `5000 t … 5000 t + 4999` of the aggregated array and the whole [1, 16] bias row, and writes
  back, for every entry of the block, the larger of (entry + the bias of its column) and the zero word's value. The
  casts of a block to its own shape are the identity and the bias row is spread down the 5000 rows, so point `t`
  writes back block `t` of `biasRelu a b (r, j) = max (a (r, j) + b (0, j)) 0` of the two arrays the region finds; the
  row blocks tile the output array.
-/
import proofs.«159092_j55095840473679_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

/-- The bias row's entry over column `i 1`. -/
abbrev biasAt (i : S100000x16.Idx) : S1x16.Idx := fun a => match a with
  | ⟨0, _⟩ => ⟨0, Nat.one_pos⟩
  | ⟨1, _⟩ => ⟨(i 1).val, (i 1).isLt⟩

/-- Bias then ReLU, entry by entry, on the extended reals (the zero is kept as the word the programs print). -/
def biasRelu (a : S100000x16.Idx → EReal) (b : S1x16.Idx → EReal) : S100000x16.Idx → EReal :=
  fun i => max (a i + b (biasAt i)) (Ideal.ofBits .f32 0x00000000#32)

/-! ## The body's payload at an index of the block -/

/-- The bias block's entry over column `j 1` of the block. -/
abbrev bbiasAt (j : S5000x16.Idx) : S1x16.Idx := fun a => match a with
  | ⟨0, _⟩ => ⟨0, Nat.one_pos⟩
  | ⟨1, _⟩ => ⟨(j 1).val, (j 1).isLt⟩

/-- The payload, index by index. -/
theorem pay_eq (a0 : Vec Ideal S5000x16 .f32) (b0 : Vec Ideal S1x16 .f32) :
    k1_pay1 (F := Ideal) a0 b0 = fun j => max (a0 j + b0 (bbiasAt j)) (Ideal.ofBits .f32 0x00000000#32) := by
  funext j
  unfold k1_pay1
  simp only [shapeCast_self]
  show max (a0 j + broadcastTo S5000x16 b0 broadcasts_S1x16_S5000x16 j) (Ideal.ofBits .f32 0x00000000#32) = _
  rw [broadcastTo_apply b0 broadcasts_S1x16_S5000x16 j (bbiasAt j) (fun a => by
    match a with
    | ⟨0, _⟩ => rfl
    | ⟨1, _⟩ => rfl)]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The aggregate window's block at point `t`, and the bias window's, at their literal types. -/
abbrev ablk (c : Dev nD) (t : Fin cfg1.N) : Vec Ideal S5000x16 .f32 := iblk1 V c 0 t
abbrev bblk (c : Dev nD) (t : Fin cfg1.N) : Vec Ideal S1x16 .f32 := iblk1 V c 1 t
/-- The two arrays the region finds, at their literal types. -/
abbrev aarr (c : Dev nD) : Vec Ideal S100000x16 .f32 := V c main_v43
abbrev barr (c : Dev nD) : Vec Ideal S1x16 .f32 := V c main_v44

/-- The printed index maps over the grid: the aggregate window and the output window are at row block `t`, column
    block 0; the bias window stays at block (0, 0). -/
theorem idx_facts : ∀ t : Fin cfg1.N, win1_2.index t (0 : Fin 2) = t.val
    ∧ win1_2.index t (1 : Fin 2) = 0
    ∧ win1_0.index t (0 : Fin 2) = t.val
    ∧ win1_0.index t (1 : Fin 2) = 0
    ∧ win1_1.index t (0 : Fin 2) = 0
    ∧ win1_1.index t (1 : Fin 2) = 0 :=
  (by decide +kernel : ∀ t : Fin grid1.N, _)

/-- What point `t` writes back is block `t` of `biasRelu` of the two arrays the region finds. -/
theorem flushed_eq (c : Dev nD) (t : Fin cfg1.N) :
    (dat1 V c).flushed 2 t = ((cfg1.win 2).blk t).view.read (Elt Ideal) (biasRelu (aarr V c) (barr V c)) := by
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  rw [pay_eq]
  obtain ⟨e0, e1, e2, e3, e4, e5⟩ := idx_facts t
  funext j
  show max (ablk V c t j + bblk V c t (bbiasAt j)) (Ideal.ofBits .f32 0x00000000#32) = biasRelu (aarr V c) (barr V c) (((cfg1.win 2).blk t).view.emb j)
  unfold biasRelu
  have h0 : ablk V c t j = aarr V c (((cfg1.win 2).blk t).view.emb j) := by
    show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * (j 1).val = win1_2.index t (1 : Fin 2) * 16 + 1 * (j 1).val; omega
  have h1 : bblk V c t (bbiasAt j) = barr V c (biasAt (((cfg1.win 2).blk t).view.emb j)) := by
    show V c main_v44 (((cfg1.win 1).blk t).view.emb (bbiasAt j)) = V c main_v44 (biasAt (((cfg1.win 2).blk t).view.emb j))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every index of the output array lies in the block of the point its row falls to. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  refine ⟨⟨(i 0).val / 5000, by omega⟩, flush1_2 _, ?_⟩
  rw [mem_blk]
  obtain ⟨e0, e1, -, -, -, -⟩ := idx_facts ⟨(i 0).val / 5000, by omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ _ ∧ _ < (i 0).val / 5000 * 5000 + 5000; omega
  | ⟨1, _⟩ => show win1_2.index _ (1 : Fin 2) * 16 ≤ (i 1).val ∧ (i 1).val < win1_2.index _ (1 : Fin 2) * 16 + 16; rw [e1]; omega

/-- The output array after the region: `biasRelu` of the two arrays the region finds. -/
theorem final (c : Dev nD) : (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.Region1

end
-- ==== Proof.Region2.lean ====
/-
  Region 2: the second linear transform, tiled by rows.

  Point `t` of the 20-point grid fetches rows `5000 t … 5000 t + 4999` of the hidden array and the whole [16, 2] weight
  matrix, and writes back the same rows of their product. At the ideal values the change of float format and the
  cast of a block to its own shape are the identity, and the matrix unit's product into the zero accumulator is the sum
  over the 16 contraction indices; so point `t` writes back block `t` of
  `rowsTimes h w (r, j) = ∑ k, h (r, k) · w (k, j)` of the two arrays the region finds, and the row blocks tile the
  output array.
-/
import proofs.«159092_j55095840473679_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Region2

open Cert.KernelIdeal Cert.KernelIdeal.Gen

/-- Row `i 0` of the hidden array at column `k`. -/
abbrev lrow (i : S100000x2.Idx) (k : Fin 16) : S100000x16.Idx := fun a => match a with
  | ⟨0, _⟩ => ⟨(i 0).val, (i 0).isLt⟩
  | ⟨1, _⟩ => ⟨k.val, k.isLt⟩
/-- Column `i 1` of the weight matrix at row `k`. -/
abbrev rcol (i : S100000x2.Idx) (k : Fin 16) : S16x2.Idx := fun a => match a with
  | ⟨0, _⟩ => ⟨k.val, k.isLt⟩
  | ⟨1, _⟩ => ⟨(i 1).val, (i 1).isLt⟩

/-- The product of a [100000, 16] array with a [16, 2] one, entry by entry, on the extended reals. -/
def rowsTimes (h : S100000x16.Idx → EReal) (w : S16x2.Idx → EReal) : S100000x2.Idx → EReal :=
  fun i => ∑ k : Fin 16, h (lrow i k) * w (rcol i k)

/-! ## The body's payload at an index of the block -/

abbrev dd := dot_S5000x16_S16x2_S5000x2_1_0_0_1_n_n

theorem lhs_0 (j : S5000x2.Idx) (q : dd.contr.Idx) : (dd.lhsIdx j q 0).val = (j 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
theorem lhs_1 (j : S5000x2.Idx) (q : dd.contr.Idx) : (dd.lhsIdx j q 1).val = (q ⟨0, by decide⟩).val :=
  dot_S5000x16_S16x2_S5000x2_1_0_0_1_n_n.lhsIdx_val_of_single rfl j q
theorem rhs_0 (j : S5000x2.Idx) (q : dd.contr.Idx) : (dd.rhsIdx j q 0).val = (q ⟨0, by decide⟩).val :=
  dot_S5000x16_S16x2_S5000x2_1_0_0_1_n_n.rhsIdx_val_of_single rfl j q
theorem rhs_1 (j : S5000x2.Idx) (q : dd.contr.Idx) : (dd.rhsIdx j q 1).val = (j 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- Row `j 0` of the hidden block at column `k`. -/
abbrev brow (j : S5000x2.Idx) (k : Fin 16) : S5000x16.Idx := fun a => match a with
  | ⟨0, _⟩ => ⟨(j 0).val, (j 0).isLt⟩
  | ⟨1, _⟩ => ⟨k.val, k.isLt⟩
/-- Column `j 1` of the weight block at row `k`. -/
abbrev bcol (j : S5000x2.Idx) (k : Fin 16) : S16x2.Idx := fun a => match a with
  | ⟨0, _⟩ => ⟨k.val, k.isLt⟩
  | ⟨1, _⟩ => ⟨(j 1).val, (j 1).isLt⟩

/-- The payload, index by index: the sum over the 16 contraction indices of the loaded blocks' products. -/
theorem pay_eq (h0 : Vec Ideal S5000x16 .f32) (w0 : Vec Ideal S16x2 .f32) :
    k2_pay1 (F := Ideal) h0 w0 = fun j => ∑ k : Fin 16, h0 (brow j k) * w0 (bcol j k) := by
  funext j
  unfold k2_pay1
  simp only [matmul, shapeCast_self]
  rw [Ideal.matmul_constant_zero_apply, ← Equiv.sum_comp (ValueIdx.contrEquiv1 dot_S5000x16_S16x2_S5000x2_1_0_0_1_n_n 16 rfl rfl).symm]
  refine Finset.sum_congr rfl fun k _ => ?_
  have hk := ValueIdx.contrEquiv1_symm_val dot_S5000x16_S16x2_S5000x2_1_0_0_1_n_n 16 rfl rfl k
  have el : dot_S5000x16_S16x2_S5000x2_1_0_0_1_n_n.lhsIdx j ((ValueIdx.contrEquiv1 dot_S5000x16_S16x2_S5000x2_1_0_0_1_n_n 16 rfl rfl).symm k) = brow j k := funext fun a => Fin.ext (by
    match a with
    | ⟨0, _⟩ => exact lhs_0 _ _
    | ⟨1, _⟩ => exact (lhs_1 _ _).trans hk)
  have er : dot_S5000x16_S16x2_S5000x2_1_0_0_1_n_n.rhsIdx j ((ValueIdx.contrEquiv1 dot_S5000x16_S16x2_S5000x2_1_0_0_1_n_n 16 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The hidden window's block at point `t`, and the weight window's, at their literal types. -/
abbrev hblk (c : Dev nD) (t : Fin cfg2.N) : Vec Ideal S5000x16 .f32 := iblk2 V c 0 t
abbrev wblk (c : Dev nD) (t : Fin cfg2.N) : Vec Ideal S16x2 .f32 := iblk2 V c 1 t
/-- The two arrays the region finds, at their literal types. -/
abbrev harr (c : Dev nD) : Vec Ideal S100000x16 .f32 := V c main_v45
abbrev warr (c : Dev nD) : Vec Ideal S16x2 .f32 := V c main_arg3

/-- The printed index maps over the grid: the hidden window moves with the output window along the rows, at block
    index `t`; the weight window and every column index stay at block 0. -/
theorem idx_facts : ∀ t : Fin cfg2.N, win2_2.index t (0 : Fin 2) = t.val
    ∧ win2_2.index t (1 : Fin 2) = 0
    ∧ win2_0.index t (0 : Fin 2) = t.val
    ∧ win2_0.index t (1 : Fin 2) = 0
    ∧ win2_1.index t (0 : Fin 2) = 0
    ∧ win2_1.index t (1 : Fin 2) = 0 :=
  (by decide +kernel : ∀ t : Fin grid2.N, _)

/-- What point `t` writes back is block `t` of the product of the two arrays the region finds. -/
theorem flushed_eq (c : Dev nD) (t : Fin cfg2.N) :
    (dat2 V c).flushed 2 t = ((cfg2.win 2).blk t).view.read (Elt Ideal) (rowsTimes (harr V c) (warr V c)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x2) hz]
  rw [pay_eq]
  obtain ⟨e0, e1, e2, e3, e4, e5⟩ := idx_facts t
  funext j
  show (∑ k : Fin 16, hblk V c t (brow j k) * wblk V c t (bcol j k)) = rowsTimes (harr V c) (warr V c) (((cfg2.win 2).blk t).view.emb j)
  unfold rowsTimes
  refine Finset.sum_congr rfl fun k _ => ?_
  have h0 : hblk V c t (brow j k) = harr V c (lrow (((cfg2.win 2).blk t).view.emb j) k) := by
    show V c main_v45 (((cfg2.win 0).blk t).view.emb (brow j k)) = _
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * k.val = k.val; omega
  have h1 : wblk V c t (bcol j k) = warr V c (rcol (((cfg2.win 2).blk t).view.emb j) k) := by
    show V c main_arg3 (((cfg2.win 1).blk t).view.emb (bcol j k)) = _
    congr 1
    funext a; apply Fin.ext
    match a with
    | ⟨0, _⟩ => show win2_1.index t (0 : Fin 2) * 16 + 1 * k.val = k.val; omega
    | ⟨1, _⟩ => show win2_1.index t (1 : Fin 2) * 2 + 1 * (j 1).val = win2_2.index t (1 : Fin 2) * 2 + 1 * (j 1).val; omega
  rw [h0, h1]

/-- An index of the output array is in point `t`'s block iff each coordinate is in the block's range on its axis. -/
theorem mem_blk (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v46).slice (win2_2.rect t)).set ↔ _
  rw [View.set_slice_whole, Rect.mem_set_unit]
  exact Iff.rfl

/-- Every index of the output array lies in the block of the point its row falls to. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  refine ⟨⟨(i 0).val / 5000, by omega⟩, flush2_2 _, ?_⟩
  rw [mem_blk]
  obtain ⟨e0, e1, -, -, -, -⟩ := idx_facts ⟨(i 0).val / 5000, by omega⟩
  intro a
  match a with
  | ⟨0, _⟩ => show win2_2.index _ (0 : Fin 2) * 5000 ≤ (i 0).val ∧ (i 0).val < win2_2.index _ (0 : Fin 2) * 5000 + 5000; rw [e0]; show (i 0).val / 5000 * 5000 ≤ _ ∧ _ < (i 0).val / 5000 * 5000 + 5000; omega
  | ⟨1, _⟩ => show win2_2.index _ (1 : Fin 2) * 2 ≤ (i 1).val ∧ (i 1).val < win2_2.index _ (1 : Fin 2) * 2 + 2; rw [e1]; omega

/-- The output array after the region: the product of the two arrays the region finds. -/
theorem final (c : Dev nD) : (dat2 V c).arrAt 2 cfg2.N = rowsTimes (V c main_v45) (V c main_arg3) :=
  (dat2 V c).arrAt_eq_of_cover 2 (rowsTimes (V c main_v45) (V c main_arg3)) (fun t _ => flushed_eq V c t) cover

end Cert.KernelIdeal.Region2

end
-- ==== Proof.LibLayoutCols.lean ====
/-
  General lemmas, for any extents: the column forms of the layout operations read at coordinates.

  * A vector [a] viewed as a column [a, 1], and a column viewed as a vector: entry `i` either way.
  * A column [a, 1] spread over [a, b]: row `p`'s one entry at every column.
  * A trailing unit axis dropped from [a, b, 1] or added to [a, b]: the entry at (p, q) either way.
  * A unit-stride cut of a matrix along its columns that keeps ONE column `o`: the entry at (i, o).
  * A kernel's f32 sum along the rows into the zero word, with the accumulator's evidence spelt as a kernel prints it
    (`0 = 0`): row p's sum over the columns.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLayoutCols

open Idealize.ShloMosaic Idealize.ShloMosaic.ValueIdx
open scoped BigOperators

variable {α : Type}

/-- A vector viewed as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column viewed as a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column spread over the columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis dropped: the entry at (p, q) is the operand's at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A trailing unit axis added: the entry at (p, q, u) is the operand's at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- One column `o` cut out of a matrix: the entry at (i, 0) of the cut is the matrix's at (i, o). -/
theorem slice_col_apply {n0 n1 : ℕ} (o : ℕ) (X : (⟨2, ![n0, n1]⟩ : Shape).Idx → α)
    (h : (⟨2, ![n0, n1]⟩ : Shape).Slices ![0, o] ⟨2, ![n0, 1]⟩) (i : Fin n0) (k : Fin n1) (hk : k.val = o) :
    extractStridedSlice ⟨2, ![n0, 1]⟩ ![0, o] X h (ix2 i (0 : Fin 1)) = X (ix2 i k) :=
  slice2_axis1_apply o X h i (0 : Fin 1) k (by show k.val = o + 0; omega)

/-- An f32 sum along the rows into the zero word, the accumulator's evidence the printed `0 = 0`, at row p. -/
theorem rowsum_f32_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (p : Fin A) :
    multiReduction .add [1] ⟨1, ![A]⟩ src 0x00000000#32 h hφ hacc (ix1 p) = ∑ k : Fin B, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

end Cert.LibLayoutCols

end
-- ==== Proof.LibRowMax.lean ====
/-
  General lemmas, for any extents: a kernel's f32 maximum along the rows read at a row, and a row statistic kept as a
  column and spread back over the row.

  * An f32 `maximumf` reduction of an [A, B] vector along axis 1 from the word of -∞, at row p: the fold of `max` from
    that word's value over the B entries of row p.
  * A vector [A] viewed as a column [A, 1] and spread over [A, B] reads, at (p, q), the vector at p.
  * The host's reduce with a maximum body along axis 1, at row p: the same fold from its initial value; and such a fold
    absorbs one more maximum with the value it starts from.
-/
import Mathlib.Data.Finset.Fold
import Idealize.ShloMosaic.Lib.Pipeline.Value
import Idealize.ShloMosaic.Lib.ValueIdx
import Idealize.ShloMosaic.Lib.ValueLayout
import Idealize.ShloMosaic.PureOps.Ideal.Laws
import proofs.«159092_j55095840473679_1_alg».proof.Proof.LibLayoutCols

noncomputable section

namespace Cert.LibRowMax

open Idealize.ShloMosaic Idealize.ShloMosaic.ValueIdx

/-- An f32 maximum along the rows from the word of -∞, the accumulator's evidence spelt as a kernel prints it, at row p:
    the fold of `max` from that word's value over the row's entries. -/
theorem rowmax_f32_apply {A B : ℕ} (src : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (p : Fin A) :
    multiReduction .maximumf [1] ⟨1, ![A]⟩ src 0xFF800000#32 h hφ hacc (ix1 p)
      = (Finset.univ : Finset (Fin B)).fold max (Ideal.ofBits .f32 0xFF800000#32) (fun k => src (ix2 p k)) :=
  (Ideal.multiReduction_maximumf_single src 0xFF800000#32 h hφ hacc (ix1 p)).trans
    (congrArg (fun f => (Finset.univ : Finset (Fin B)).fold max (Ideal.ofBits .f32 0xFF800000#32) f)
      (funext fun k => congrArg src (funext fun a => Fin.ext (by
        match a with
        | ⟨0, _⟩ => rfl
        | ⟨1, _⟩ => rfl))))

/-- A per-row value kept as a column and spread back over the columns reads, at (p, q), the value of row p. -/
theorem colspread_apply {α : Type} {A B : ℕ} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) :=
  (Cert.LibLayoutCols.broadcastTo_a1_ab_apply _ h2 p q).trans (Cert.LibLayoutCols.shapeCast_a_a1_apply v h1 p 0)

/-- The host's one-operand reduce with a maximum body along the rows, at row p: the fold of `max` from the initial
    value over the row's entries. -/
theorem host_rowmax_apply {A B : ℕ} (x : FVec Ideal ⟨2, ![A, B]⟩ .f32) (init : (⟨0, ![]⟩ : Shape).Idx → Ideal .f32)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel) (p : Fin A) :
    Host.reduce FloatOps.maximumf x init h' hu (ix1 p)
      = (Finset.univ : Finset (Fin B)).fold max (init (Shape.Idx.first hu)) (fun k => x (ix2 p k)) :=
  (Host.reduce_eq_fold_single FloatOps.maximumf x init h' h hu (ix1 p)).trans
    (congrArg (fun f => (Finset.univ : Finset (Fin B)).fold max (init (Shape.Idx.first hu)) f)
      (funext fun k => congrArg x (funext fun a => Fin.ext (by
        match a with
        | ⟨0, _⟩ => rfl
        | ⟨1, _⟩ => rfl))))

/-- A fold of `max` from `c` is at least `c`: taking the maximum with `c` once more changes nothing. -/
theorem max_fold_max_self {ι : Type} (s : Finset ι) (c : EReal) (f : ι → EReal) : max c (s.fold max c f) = s.fold max c f :=
  max_eq_right ((Finset.le_fold_max c).mpr (Or.inl le_rfl))

end Cert.LibRowMax

end
-- ==== Proof.Region3.lean ====
/-
  Region 3: bias and log-softmax along the two classes, tiled by rows.

  Point `t` fetches rows `5000 t … 5000 t + 4999` of the aggregated [100000, 2] array and the whole [1, 2] bias row. For a
  row with logits `l k = a (r, k) + b (0, k)` the body takes the row's maximum `mx` (a fold of `max` from the word of
  -∞), keeps it as a column and spreads it back, subtracts, exponentiates, sums the row (into the zero word), takes the
  logarithm, spreads it back and subtracts again: entry (r, q) is `(l q - mx) - log (∑ k, exp (l k - mx))`. Every step
  reads only row r, so point `t` writes back block `t` of ONE function of the two arrays the region finds, and the row
  blocks tile the output array.
-/
import proofs.«159092_j55095840473679_1_alg».proof.Proof.Gen.KernelIdeal.Frame
import proofs.«159092_j55095840473679_1_alg».proof.Proof.LibLayoutCols
import proofs.«159092_j55095840473679_1_alg».proof.Proof.LibRowMax
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region3

open Cert.KernelIdeal Cert.KernelIdeal.Gen

/-- The two logits of row `r`: the row's entries plus the bias row's. -/
def rowLogits {n : ℕ} (a : (⟨2, ![n, 2]⟩ : Shape).Idx → EReal) (b : (⟨2, ![1, 2]⟩ : Shape).Idx → EReal) (r : Fin n) : Fin 2 → EReal :=
  fun k => a (ix2 r k) + b (ix2 (0 : Fin 1) k)

/-- A row's maximum, as the fold of `max` from the word of -∞. -/
def rowMax (l : Fin 2 → EReal) : EReal := (Finset.univ : Finset (Fin 2)).fold max (Ideal.ofBits .f32 0xFF800000#32) l

/-- Log-softmax of a row of two logits at class `q`. -/
def logSoftmaxOf (l : Fin 2 → EReal) (q : Fin 2) : EReal :=
  (l q - rowMax l) - Ideal.log (∑ k : Fin 2, Ideal.exp (l k - rowMax l))

/-- Bias then log-softmax over the two classes, entry by entry, on the extended reals. -/
def biasLogSoftmax (a : S100000x2.Idx → EReal) (b : S1x2.Idx → EReal) : S100000x2.Idx → EReal :=
  fun i => logSoftmaxOf (rowLogits a b ⟨(i 0).val, (i 0).isLt⟩) ⟨(i 1).val, (i 1).isLt⟩

/-! ## The body's payload at an index of the block -/

/-- The payload at (p, q) of the block: the log-softmax of row p's logits at class q. -/
theorem pay_apply (a0 : Vec Ideal S5000x2 .f32) (b0 : Vec Ideal S1x2 .f32) (p : Fin 5000) (q : Fin 2) :
    k3_pay1 (F := Ideal) a0 b0 (ix2 p q) = logSoftmaxOf (rowLogits a0 b0 p) q := by
  unfold k3_pay1
  simp only [shapeCast_self]
  generalize hL : (addf (F := Ideal) (a0 : FVec Ideal S5000x2 .f32) (broadcastTo S5000x2 (b0 : FVec Ideal S1x2 .f32) broadcasts_S1x2_S5000x2) : FVec Ideal S5000x2 .f32) = L
  have hLa : ∀ (p' : Fin 5000) (k : Fin 2), L (ix2 p' k) = rowLogits a0 b0 p' k := by
    intro p' k
    subst hL
    show (a0 (ix2 p' k) : EReal) + broadcastTo S5000x2 (b0 : FVec Ideal S1x2 .f32) broadcasts_S1x2_S5000x2 (ix2 p' k) = _
    rw [broadcastTo_apply (b0 : FVec Ideal S1x2 .f32) broadcasts_S1x2_S5000x2 (ix2 p' k) (ix2 (0 : Fin 1) k) (fun a => by
      match a with
      | ⟨0, _⟩ => rfl
      | ⟨1, _⟩ => rfl)]
    rfl
  have hmx : ∀ p' : Fin 5000, multiReduction .maximumf [1] S5000 L 0xFF800000#32 reduces_S5000x2_S5000 (.inl rfl) rfl (ix1 p') = rowMax (rowLogits a0 b0 p') := by
    intro p'
    refine (Cert.LibRowMax.rowmax_f32_apply L reduces_S5000x2_S5000 (.inl rfl) rfl p').trans ?_
    unfold rowMax
    exact congrArg (fun f => (Finset.univ : Finset (Fin 2)).fold max (Ideal.ofBits .f32 0xFF800000#32) f) (funext fun k => hLa p' k)
  -- the row maximum kept as a column and spread back over the row
  generalize hM : broadcastTo S5000x2 (shapeCast S5000x1 (multiReduction .maximumf [1] S5000 L 0xFF800000#32 reduces_S5000x2_S5000 (.inl rfl) rfl) shapeCasts_S5000_S5000x1) broadcasts_S5000x1_S5000x2 = M
  have hMa : ∀ (p' : Fin 5000) (k : Fin 2), M (ix2 p' k) = rowMax (rowLogits a0 b0 p') := by
    intro p' k
    subst hM
    exact (Cert.LibRowMax.colspread_apply _ shapeCasts_S5000_S5000x1 broadcasts_S5000x1_S5000x2 p' k).trans (hmx p')
  -- the row's sum of exponentials
  have hsum : multiReduction .add [1] S5000 (exp (subf L M)) 0x00000000#32 reduces_S5000x2_S5000 (.inl rfl) rfl (ix1 p)
      = ∑ k : Fin 2, Ideal.exp (rowLogits a0 b0 p k - rowMax (rowLogits a0 b0 p)) :=
    (Cert.LibLayoutCols.rowsum_f32_apply (exp (subf L M)) reduces_S5000x2_S5000 (.inl rfl) rfl p).trans
      (Finset.sum_congr rfl fun k _ => by
        show Ideal.exp (L (ix2 p k) - M (ix2 p k)) = _
        rw [hLa, hMa])
  have hlog : broadcastTo S5000x2 (log (shapeCast S5000x1 (multiReduction .add [1] S5000 (exp (subf L M)) 0x00000000#32 reduces_S5000x2_S5000 (.inl rfl) rfl) shapeCasts_S5000_S5000x1)) broadcasts_S5000x1_S5000x2 (ix2 p q)
      = Ideal.log (∑ k : Fin 2, Ideal.exp (rowLogits a0 b0 p k - rowMax (rowLogits a0 b0 p))) :=
    (Cert.LibLayoutCols.broadcastTo_a1_ab_apply _ broadcasts_S5000x1_S5000x2 p q).trans (by
      show Ideal.log (shapeCast S5000x1 (multiReduction .add [1] S5000 (exp (subf L M)) 0x00000000#32 reduces_S5000x2_S5000 (.inl rfl) rfl) shapeCasts_S5000_S5000x1 (ix2 p (0 : Fin 1))) = _
      rw [Cert.LibLayoutCols.shapeCast_a_a1_apply, hsum])
  show (L (ix2 p q) - M (ix2 p q)) - broadcastTo S5000x2 (log (shapeCast S5000x1 (multiReduction .add [1] S5000 (exp (subf L M)) 0x00000000#32 reduces_S5000x2_S5000 (.inl rfl) rfl) shapeCasts_S5000_S5000x1)) broadcasts_S5000x1_S5000x2 (ix2 p q) = _
  rw [hlog, hLa, hMa]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The aggregate window's block at point `t`, and the bias window's, at their literal types. -/
abbrev ablk (c : Dev nD) (t : Fin cfg3.N) : Vec Ideal S5000x2 .f32 := iblk3 V c 0 t
abbrev bblk (c : Dev nD) (t : Fin cfg3.N) : Vec Ideal S1x2 .f32 := iblk3 V c 1 t
/-- The two arrays the region finds, at their literal types. -/
abbrev aarr (c : Dev nD) : Vec Ideal S100000x2 .f32 := V c main_v59
abbrev barr (c : Dev nD) : Vec Ideal S1x2 .f32 := V c main_v60

/-- The payload, index by index. -/
theorem pay_eq (a0 : Vec Ideal S5000x2 .f32) (b0 : Vec Ideal S1x2 .f32) :
    k3_pay1 (F := Ideal) a0 b0 = fun j => logSoftmaxOf (rowLogits a0 b0 ⟨(j 0).val, (j 0).isLt⟩) ⟨(j 1).val, (j 1).isLt⟩ := by
  funext j
  have hj : j = ix2 (⟨(j 0).val, (j 0).isLt⟩ : Fin 5000) (⟨(j 1).val, (j 1).isLt⟩ : Fin 2) := eq_ix2 j
  exact (congrArg (k3_pay1 (F := Ideal) a0 b0) hj).trans (pay_apply a0 b0 _ _)

/-- The printed index maps over the grid: the aggregate window and the output window are at row block `t`, column
    block 0; the bias window stays at block (0, 0). -/
theorem idx_facts : ∀ t : Fin cfg3.N, win3_2.index t (0 : Fin 2) = t.val
    ∧ win3_2.index t (1 : Fin 2) = 0
    ∧ win3_0.index t (0 : Fin 2) = t.val
    ∧ win3_0.index t (1 : Fin 2) = 0
    ∧ win3_1.index t (0 : Fin 2) = 0
    ∧ win3_1.index t (1 : Fin 2) = 0 :=
  (by decide +kernel : ∀ t : Fin grid3.N, _)

/-- What point `t` writes back is block `t` of `biasLogSoftmax` of the two arrays the region finds: a row of the block is
    a row of the array, and the bias row is the same row. -/
theorem flushed_eq (c : Dev nD) (t : Fin cfg3.N) :
    (dat3 V c).flushed 2 t = ((cfg3.win 2).blk t).view.read (Elt Ideal) (biasLogSoftmax (aarr V c) (barr V c)) := by
  show (cfg3.win 2).cut (grid3.coords t) ((dat3 V c).after 2 t) = _
  rw [after3_2]
  unfold out3_2
  rw [View.canon_unit_zero hz]
  simp only [View.ld_unit_zero (S := S5000x2) hz, View.ld_unit_zero (S := S1x2) hz]
  rw [pay_eq]
  obtain ⟨e0, e1, e2, e3, e4, e5⟩ := idx_facts t
  funext j
  show logSoftmaxOf (rowLogits (ablk V c t) (bblk V c t) ⟨(j 0).val, (j 0).isLt⟩) ⟨(j 1).val, (j 1).isLt⟩
    = biasLogSoftmax (aarr V c) (barr V c) (((cfg3.win 2).blk t).view.emb j)
  unfold biasLogSoftmax
  have hrow : rowLogits (ablk V c t) (bblk V c t) ⟨(j 0).val, (j 0).isLt⟩
      = rowLogits (aarr V c) (barr V c) ⟨((((cfg3.win 2).blk t).view.emb j) 0).val, ((((cfg3.win 2).blk t).view.emb j) 0).isLt⟩ := by
    funext k
    unfold rowLogits
    have h0 : ablk V c t (ix2 (⟨(j 0).val, (j 0).isLt⟩ : Fin 5000) k)
        = aarr V c (ix2 (⟨((((cfg3.win 2).blk t).view.emb j) 0).val, ((((cfg3.win 2).blk t).view.emb j) 0).isLt⟩ : Fin 100000) k) := by
      show V c main_v59 (((cfg3.win 0).blk t).view.emb (ix2 (⟨(j 0).val, (j 0).isLt⟩ : Fin 5000) k)) = V c main_v59 _
      refine congrArg (V c main_v59) (funext fun a => Fin.ext ?_)
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 2 + 1 * k.val = k.val; omega
    have h1 : bblk V c t (ix2 (0 : Fin 1) k) = barr V c (ix2 (0 : Fin 1) k) := by
      show V c main_v60 (((cfg3.win 1).blk t).view.emb (ix2 (0 : Fin 1) k)) = V c main_v60 _
      refine congrArg (V c main_v60) (funext fun a => Fin.ext ?_)
      match a with
      | ⟨0, _⟩ => show win3_1.index t (0 : Fin 2) * 1 + 1 * 0 = 0; omega
      | ⟨1, _⟩ => show win3_1.index t (1 : Fin 2) * 2 + 1 * k.val = k.val; omega
    rw [h0, h1]
  have hcol : (⟨(j 1).val, (j 1).isLt⟩ : Fin 2) = ⟨((((cfg3.win 2).blk t).view.emb j) 1).val, ((((cfg3.win 2).blk t).view.emb j) 1).isLt⟩ := by
    apply Fin.ext
    show (j 1).val = win3_2.index t (1 : Fin 2) * 2 + 1 * (j 1).val
    omega
  rw [hrow, hcol]

/-- An index of the output array is in point `t`'s block iff each coordinate is in the block's range on its axis. -/
theorem mem_blk (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v61).slice (win3_2.rect t)).set ↔ _
  rw [View.set_slice_whole, Rect.mem_set_unit]
  exact Iff.rfl

/-- Every index of the output array lies in the block of the point its row falls to. -/
theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  refine ⟨⟨(i 0).val / 5000, by omega⟩, flush3_2 _, ?_⟩
  rw [mem_blk]
  obtain ⟨e0, e1, -, -, -, -⟩ := idx_facts ⟨(i 0).val / 5000, by omega⟩
  intro a
  match a with
  | ⟨0, _⟩ => show win3_2.index _ (0 : Fin 2) * 5000 ≤ (i 0).val ∧ (i 0).val < win3_2.index _ (0 : Fin 2) * 5000 + 5000; rw [e0]; show (i 0).val / 5000 * 5000 ≤ _ ∧ _ < (i 0).val / 5000 * 5000 + 5000; omega
  | ⟨1, _⟩ => show win3_2.index _ (1 : Fin 2) * 2 ≤ (i 1).val ∧ (i 1).val < win3_2.index _ (1 : Fin 2) * 2 + 2; rw [e1]; omega

/-- The output array after the region: `biasLogSoftmax` of the two arrays the region finds. -/
theorem final (c : Dev nD) : (dat3 V c).arrAt 2 cfg3.N = biasLogSoftmax (V c main_v59) (V c main_v60) :=
  (dat3 V c).arrAt_eq_of_cover 2 (biasLogSoftmax (V c main_v59) (V c main_v60)) (fun t _ => flushed_eq V c t) cover

end Cert.KernelIdeal.Region3

end
-- ==== Proof.RefBridge.lean ====
/-
  The reference's four dense stages, each read as the function the matching kernel region computes.

  * Its first product `x · W1` is `Region0.rowsTimes`; its second, `relu(…) · W2`, is `Region2.rowsTimes`: a host
    `dot_general` over one contracted axis is the plain sum over that axis at the ideal values.
  * `relu (agg + b1)`: the reference spreads the bias over a unit leading axis and then down the rows; the kernel's
    program reshapes it to a [1, 16] row and the region spreads that row. Either way entry (r, j) adds `b1 j`, and the
    ReLU is the maximum with the zero word's value on both sides: `Region1.biasRelu`.
  * `log_softmax (agg + b2)`: jax's `log_softmax` takes the row maximum by a host reduce from -∞ and then once more the
    maximum with -∞, which changes nothing; the rest (subtract, exponentiate, sum the row from the zero word, which is
    0, take the logarithm, subtract) is what the region does row by row: `Region3.biasLogSoftmax`.
-/
import proofs.«159092_j55095840473679_1_alg».proof.Proof.RefRead
import proofs.«159092_j55095840473679_1_alg».proof.Proof.Region0
import proofs.«159092_j55095840473679_1_alg».proof.Proof.Region1
import proofs.«159092_j55095840473679_1_alg».proof.Proof.Region2
import proofs.«159092_j55095840473679_1_alg».proof.Proof.Region3
import proofs.«159092_j55095840473679_1_alg».proof.Proof.LibRowMax
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen Cert.ReferenceIdeal.ReadP
open Idealize.ShloMosaic Idealize.ShloMosaic.ValueIdx
open scoped BigOperators

/-- The first product. -/
theorem dot1_eq (x0 : (⟨S100000x256, .f32⟩ : BufTy).Contents (Elt Ideal)) (x1 : (⟨S256x16, .f32⟩ : BufTy).Contents (Elt Ideal)) :
    val_main_v30 (F := Ideal) x0 x1 = Cert.KernelIdeal.Region0.rowsTimes x0 x1 :=
  funext fun i => (val_main_v30_apply x0 x1 i).trans rfl

/-- The second product. -/
theorem dot2_eq (x0 : (⟨S100000x256, .f32⟩ : BufTy).Contents (Elt Ideal)) (x1 : (⟨S256x16, .f32⟩ : BufTy).Contents (Elt Ideal))
    (x2 : (⟨S16, .f32⟩ : BufTy).Contents (Elt Ideal)) (x3 : (⟨S16x2, .f32⟩ : BufTy).Contents (Elt Ideal))
    (x5 : (⟨S2x6400000, .i32⟩ : BufTy).Contents (Elt Ideal)) :
    val_main_v48 (F := Ideal) x0 x1 x2 x3 x5 = Cert.KernelIdeal.Region2.rowsTimes (val_main_v47 (F := Ideal) x0 x1 x2 x5) x3 :=
  funext fun i => (val_main_v48_apply x0 x1 x2 x3 x5 i).trans rfl

/-- Bias and ReLU of the first layer. -/
theorem relu_eq (x0 : (⟨S100000x256, .f32⟩ : BufTy).Contents (Elt Ideal)) (x1 : (⟨S256x16, .f32⟩ : BufTy).Contents (Elt Ideal))
    (x2 : (⟨S16, .f32⟩ : BufTy).Contents (Elt Ideal)) (x5 : (⟨S2x6400000, .i32⟩ : BufTy).Contents (Elt Ideal)) :
    val_main_v47 (F := Ideal) x0 x1 x2 x5
      = Cert.KernelIdeal.Region1.biasRelu (val_main_v43 (F := Ideal) x0 x1 x5)
          (shapeCast Cert.KernelIdeal.S1x16 x2 Cert.KernelIdeal.Gen.shapeCasts_S16_S1x16) := by
  funext i
  rw [val_main_v47_apply, val_main_v46_apply, val_main_v45_apply, val_main_v44_apply, val_main_call1_v0_apply, val_main_call1_cst_apply]
  unfold Cert.KernelIdeal.Region1.biasRelu
  have hb : shapeCast Cert.KernelIdeal.S1x16 x2 Cert.KernelIdeal.Gen.shapeCasts_S16_S1x16 (Cert.KernelIdeal.Region1.biasAt i)
      = x2 (idx_main_v44 (idx_main_v45 i)) :=
    (shapeCast_addUnit_apply ![16] x2 Cert.KernelIdeal.Gen.shapeCasts_S16_S1x16 (Cert.KernelIdeal.Region1.biasAt i)).trans
      (congrArg x2 (funext fun a => Fin.ext (by
        match a with
        | ⟨0, _⟩ => rfl)))
  show max (val_main_v43 (F := Ideal) x0 x1 x5 i + x2 (idx_main_v44 (idx_main_v45 i))) (Ideal.ofBits .f32 0x00000000#32)
    = max (val_main_v43 (F := Ideal) x0 x1 x5 i + shapeCast Cert.KernelIdeal.S1x16 x2 Cert.KernelIdeal.Gen.shapeCasts_S16_S1x16 (Cert.KernelIdeal.Region1.biasAt i)) (Ideal.ofBits .f32 0x00000000#32)
  rw [hb]

/-- Bias and log-softmax of the second layer. -/
theorem lsm_eq (x0 : (⟨S100000x256, .f32⟩ : BufTy).Contents (Elt Ideal)) (x1 : (⟨S256x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x6400000, .i32⟩ : BufTy).Contents (Elt Ideal)) :
    val_main_v65 (F := Ideal) x0 x1 x2 x3 x4 x5
      = Cert.KernelIdeal.Region3.biasLogSoftmax (val_main_v61 (F := Ideal) x0 x1 x2 x3 x5)
          (shapeCast Cert.KernelIdeal.S1x2 x4 Cert.KernelIdeal.Gen.shapeCasts_S2_S1x2) := by
  funext i
  -- the row and the class of the entry
  generalize hr : (⟨(i 0).val, (i 0).isLt⟩ : Fin 100000) = r
  generalize hq : (⟨(i 1).val, (i 1).isLt⟩ : Fin 2) = q
  have hi : i = ix2 r q := by
    subst hr hq
    funext a
    match a with
    | ⟨0, _⟩ => rfl
    | ⟨1, _⟩ => rfl
  -- the row's logits
  have h64 : ∀ k : Fin 2, val_main_v64 (F := Ideal) x0 x1 x2 x3 x4 x5 (ix2 r k)
      = Cert.KernelIdeal.Region3.rowLogits (val_main_v61 (F := Ideal) x0 x1 x2 x3 x5)
          (shapeCast Cert.KernelIdeal.S1x2 x4 Cert.KernelIdeal.Gen.shapeCasts_S2_S1x2) r k := by
    intro k
    rw [val_main_v64_apply, val_main_v63_apply, val_main_v62_apply]
    unfold Cert.KernelIdeal.Region3.rowLogits
    have hb : shapeCast Cert.KernelIdeal.S1x2 x4 Cert.KernelIdeal.Gen.shapeCasts_S2_S1x2 (ix2 (0 : Fin 1) k)
        = x4 (idx_main_v62 (idx_main_v63 (ix2 r k))) :=
      (shapeCast_addUnit_apply ![2] x4 Cert.KernelIdeal.Gen.shapeCasts_S2_S1x2 (ix2 (0 : Fin 1) k)).trans
        (congrArg x4 (funext fun a => Fin.ext (by
          match a with
          | ⟨0, _⟩ => rfl)))
    show val_main_v61 (F := Ideal) x0 x1 x2 x3 x5 (ix2 r k) + x4 (idx_main_v62 (idx_main_v63 (ix2 r k)))
      = val_main_v61 (F := Ideal) x0 x1 x2 x3 x5 (ix2 r k) + shapeCast Cert.KernelIdeal.S1x2 x4 Cert.KernelIdeal.Gen.shapeCasts_S2_S1x2 (ix2 (0 : Fin 1) k)
    rw [hb]
  generalize hl : Cert.KernelIdeal.Region3.rowLogits (val_main_v61 (F := Ideal) x0 x1 x2 x3 x5)
      (shapeCast Cert.KernelIdeal.S1x2 x4 Cert.KernelIdeal.Gen.shapeCasts_S2_S1x2) r = l at h64
  -- the row's maximum: the host reduce from -∞, and the maximum with -∞ once more
  have hred : val_main_call2_v0 (F := Ideal) x0 x1 x2 x3 x4 x5 (ix1 r) = Cert.KernelIdeal.Region3.rowMax l :=
    (Cert.LibRowMax.host_rowmax_apply (val_main_v64 (F := Ideal) x0 x1 x2 x3 x4 x5) (val_main_call2_cst (F := Ideal))
        reducesTo_S100000x2_S100000_d1 (by decide) h_S_ r).trans
      (congrArg (fun f => (Finset.univ : Finset (Fin 2)).fold max (Ideal.ofBits .f32 0xFF800000#32) f) (funext h64))
  have hmx : val_main_call2_v2 (F := Ideal) x0 x1 x2 x3 x4 x5 (ix1 r) = Cert.KernelIdeal.Region3.rowMax l := by
    rw [val_main_call2_v2_apply, val_main_call2_v1_apply, val_main_call2_cst_0_apply, hred]
    exact Cert.LibRowMax.max_fold_max_self _ _ _
  -- the shifted logits
  have h5 : ∀ k : Fin 2, val_main_call2_v5 (F := Ideal) x0 x1 x2 x3 x4 x5 (ix2 r k) = l k - Cert.KernelIdeal.Region3.rowMax l := by
    intro k
    rw [val_main_call2_v5_apply, val_main_call2_v4_apply, val_main_call2_v3_apply, h64,
      show idx_main_call2_v3 (idx_main_call2_v4 (ix2 r k)) = ix1 r from funext fun a => Fin.ext (by
        match a with
        | ⟨0, _⟩ => rfl), hmx]
    rfl
  -- the row's sum of exponentials, from the zero word
  have hsum : val_main_call2_v7 (F := Ideal) x0 x1 x2 x3 x4 x5 (ix1 r)
      = ∑ k : Fin 2, Ideal.exp (l k - Cert.KernelIdeal.Region3.rowMax l) := by
    rw [val_main_call2_v7_apply, val_main_call2_cst_1_apply, Ideal.ofBits_def, Ideal.ofBits_zero_f32, zero_add]
    refine Finset.sum_congr rfl fun k _ => ?_
    rw [val_main_call2_v6_apply, Ideal.hostUnary_exp_def,
      show idx_main_call2_v7 (ix1 r) k = ix2 r k from funext fun a => Fin.ext (by
        match a with
        | ⟨0, _⟩ => rfl
        | ⟨1, _⟩ => rfl), h5]
  -- the entry
  unfold Cert.KernelIdeal.Region3.biasLogSoftmax
  rw [hr, hq, hl]
  rw [hi, val_main_v65_apply, val_main_call2_v10_apply, val_main_call2_v9_apply, val_main_call2_v8_apply, h5,
    show idx_main_call2_v8 (idx_main_call2_v10 (ix2 r q)) = ix1 r from funext fun a => Fin.ext (by
      match a with
      | ⟨0, _⟩ => rfl), hsum]
  rfl

end Cert.ReferenceIdeal.Bridge

end
-- ==== Proof.KernelValue.lean ====
/-
  The kernel's program ends with the reference's result.

  Walking @main from the launch: region 0 leaves the first product of the feature array and the first weight matrix,
  which is the reference's first `dot_general`; the next host stretch aggregates it over the edges exactly as the
  reference aggregates its product (same edge lists, same edge weights, computed from the edge index alone); region 1
  adds the bias row and takes the ReLU, the reference's `relu (agg + b1)`; region 2 leaves the second product, the
  reference's second `dot_general`; the last host stretch aggregates it; region 3 adds the second bias row and takes the
  log-softmax of each row, the reference's `log_softmax (agg + b2)`. So the result buffer, which the launch leaves at the
  last boundary's contents, holds the reference's result stage of the six arguments.
-/
import proofs.«159092_j55095840473679_1_alg».proof.Proof.Gen.KernelIdeal.Frame
import proofs.«159092_j55095840473679_1_alg».proof.Proof.HostWalk
import proofs.«159092_j55095840473679_1_alg».proof.Proof.RefBridge

set_option maxRecDepth 16384

noncomputable section

namespace Cert.KernelIdeal.Whole

open Cert.KernelIdeal Cert.KernelIdeal.Gen Cert.KernelIdeal.Walk
open Cert.ReferenceIdeal.ReadP Cert.ReferenceIdeal.Stages Cert.ReferenceIdeal.Bridge
open Idealize.ShloMosaic Idealize.ShloMosaic.TcCoe Idealize.SL.Sem

variable (m : (ℓ : Loc nD τ sig) → Buf (Elt Ideal) ℓ) (ρ : Dev nD → PrngReg)

/-- Region 0's output is the reference's first product. -/
theorem out0 (c : Dev nD) : W4 m ρ c (Proc.devRef .tc main_v30)
    = val_main_v30 (F := Ideal) (m ((c : Thread nD τ).loc main_arg0)) (m ((c : Thread nD τ).loc main_arg1)) := by
  refine (W4_arr m ρ c 2).trans ?_
  rw [Region0.final (V3 m ρ) c]
  show Region0.rowsTimes (W3 m ρ c (Proc.devRef .tc main_arg0)) (W3 m ρ c (Proc.devRef .tc main_arg1)) = _
  rw [W3_arg0, W3_arg1, dot1_eq]

/-- Region 1 is entered at the reference's layer-1 aggregate. -/
theorem in1 (c : Dev nD) : W5 m ρ c (Proc.devRef .tc main_v43)
    = val_main_v43 (F := Ideal) (m ((c : Thread nD τ).loc main_arg0)) (m ((c : Thread nD τ).loc main_arg1)) (m ((c : Thread nD τ).loc main_arg5)) := by
  rw [W5_v43, out0, ← v43_eq]

/-- Region 1's output is the reference's hidden layer. -/
theorem out1 (c : Dev nD) : W6 m ρ c (Proc.devRef .tc main_v45)
    = val_main_v47 (F := Ideal) (m ((c : Thread nD τ).loc main_arg0)) (m ((c : Thread nD τ).loc main_arg1)) (m ((c : Thread nD τ).loc main_arg2))
        (m ((c : Thread nD τ).loc main_arg5)) := by
  refine (W6_arr m ρ c 2).trans ?_
  rw [Region1.final (V5 m ρ) c]
  show Region1.biasRelu (W5 m ρ c (Proc.devRef .tc main_v43)) (W5 m ρ c (Proc.devRef .tc main_v44)) = _
  rw [in1, W5_v44, relu_eq]

/-- Region 2's output is the reference's second product. -/
theorem out2 (c : Dev nD) : W7 m ρ c (Proc.devRef .tc main_v46)
    = val_main_v48 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  refine (W7_arr m ρ c 2).trans ?_
  rw [Region2.final (V6 m ρ) c]
  show Region2.rowsTimes (W6 m ρ c (Proc.devRef .tc main_v45)) (W6 m ρ c (Proc.devRef .tc main_arg3)) = _
  rw [out1, W6_arg3, dot2_eq]

/-- Region 3 is entered at the reference's layer-2 aggregate. -/
theorem in3 (c : Dev nD) : W8 m ρ c (Proc.devRef .tc main_v59)
    = val_main_v61 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  rw [W8_v59, out2, ← v61_eq]

/-- The result buffer at the last boundary holds the reference's result stage of the six arguments. -/
theorem result (c : Dev nD) : W9 m ρ c (Proc.devRef .tc main_v61)
    = val_main_v65 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ?_
  rw [Region3.final (V8 m ρ) c]
  show Region3.biasLogSoftmax (W8 m ρ c (Proc.devRef .tc main_v59)) (W8 m ρ c (Proc.devRef .tc main_v60)) = _
  rw [in3, W8_v60, lsm_eq]

end Cert.KernelIdeal.Whole

end
-- ==== Proof.lean ====
/-
  The certificate of a two-layer graph convolution: the kernel's program against its jnp reference, over the
  extended reals.

  Both programs compute, for node features x, weights W1, W2, biases b1, b2 and an edge index,
  `log_softmax (Â · relu (Â · (x · W1) + b1) · W2 + b2)`, where `Â` gathers along the edges (self-loops added), scales by
  the symmetric degree normalisation and adds into the target nodes. The kernel's program keeps the gather / scatter
  stage on the host, in the reference's own operations, and moves the four dense stages into kernel regions tiled by
  5000 rows: two matrix products (through bf16, which is the identity at the ideal values, into a zero accumulator),
  bias + ReLU, and bias + log-softmax. Each region's output array is one whole-array function of the arrays it finds
  (Proof/Region0 … Region3), each equal to the reference's matching stage (Proof/RefBridge); the host stretches between
  them are the reference's chains applied to those arrays (Proof/HostWalk, Proof/HostStages); so the result buffer holds
  the reference's result (Proof/KernelValue). No law used needs finite inputs: sums are only re-indexed, and the one
  algebraic fact is that a maximum taken from -∞ absorbs another maximum with -∞.

  The frames of the two kernel programs are the generated ones; the reference's is its run with the result dropped;
  the idealization rewrote nothing, so `preserves` is trivial.
-/
import proofs.«159092_j55095840473679_1_alg».proof.Defs
import proofs.«159092_j55095840473679_1_alg».proof.Proof.Gen.Kernel
import proofs.«159092_j55095840473679_1_alg».proof.Proof.Gen.Kernel.Skeleton
import proofs.«159092_j55095840473679_1_alg».proof.Proof.Gen.Kernel.Launch
import proofs.«159092_j55095840473679_1_alg».proof.Proof.Gen.Kernel.Points
import proofs.«159092_j55095840473679_1_alg».proof.Proof.Gen.Kernel.Frame
import proofs.«159092_j55095840473679_1_alg».proof.Proof.Gen.KernelIdeal
import proofs.«159092_j55095840473679_1_alg».proof.Proof.Gen.KernelIdeal.Skeleton
import proofs.«159092_j55095840473679_1_alg».proof.Proof.Gen.KernelIdeal.Launch
import proofs.«159092_j55095840473679_1_alg».proof.Proof.Gen.KernelIdeal.Points
import proofs.«159092_j55095840473679_1_alg».proof.Proof.Gen.KernelIdeal.Frame
import proofs.«159092_j55095840473679_1_alg».proof.Proof.Gen.ReferenceIdeal
import proofs.«159092_j55095840473679_1_alg».proof.Proof.Gen.Pre_finite_inputs
import proofs.«159092_j55095840473679_1_alg».proof.Proof.RefRun
import proofs.«159092_j55095840473679_1_alg».proof.Proof.RefRead
import proofs.«159092_j55095840473679_1_alg».proof.Proof.RunResult
import proofs.«159092_j55095840473679_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments both programs end with the reference's result stage of them: the
    kernel's result buffer by the walk through its regions, the reference's by its run. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v65_eq, e0, e1, e2, e3, e4, e5]
  exact (Cert.KernelIdeal.Whole.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
